-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S5632x2048 : Shape := ⟨2, ![5632, 2048]⟩
abbrev S2048x5632 : Shape := ⟨2, ![2048, 5632]⟩
abbrev S5632 : Shape := ⟨1, ![5632]⟩
abbrev S2048 : Shape := ⟨1, ![2048]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S2048x5632 : S_.BroadcastsInDim S2048x5632 (![] : Fin 0 → Fin S2048x5632.rank)
  reducesTo_S2048x5632_S_d0_1 : S2048x5632.ReducesTo [0, 1] S_
  bcast_S_S5632 : S_.BroadcastsInDim S5632 (![] : Fin 0 → Fin S5632.rank)
  reducesTo_S5632_S_d0 : S5632.ReducesTo [0] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S5632 .f32) (main_arg5 : FVec F S5632 .f32) (main_arg6 : FVec F S2048 .f32) (main_v13 : IVec S_ 1) (main_v16 : IVec S2048x5632 1) : IVec S_ 1 :=
  let main_c_5 : IVec S_ 1 := constantI S_ 1 1#1
  let main_v17 : IVec S_ 1 := (fun x v => Host.reduce IntOp.andi x v reducesTo_S2048x5632_S_d0_1 h_S_) main_v16 main_c_5
  let main_v18 : IVec S_ 1 := andi main_v13 main_v17
  let main_v19 : FVec F S5632 .f32 := Host.absf main_arg4
  let main_cst_6 : FVec F S_ .f32 := constant S_ .f32 0x7F800000#32
  let main_v20 : FVec F S5632 .f32 := broadcastInDim S5632 ![] bcast_S_S5632 main_cst_6
  let main_v21 : IVec S5632 1 := cmpf .olt main_v19 main_v20
  let main_c_7 : IVec S_ 1 := constantI S_ 1 1#1
  let main_v22 : IVec S_ 1 := (fun x v => Host.reduce IntOp.andi x v reducesTo_S5632_S_d0 h_S_) main_v21 main_c_7
  let main_v23 : IVec S_ 1 := andi main_v18 main_v22
  let main_v24 : FVec F S5632 .f32 := Host.absf main_arg5
  let main_cst_8 : FVec F S_ .f32 := constant S_ .f32 0x7F800000#32
  let main_v25 : FVec F S5632 .f32 := broadcastInDim S5632 ![] bcast_S_S5632 main_cst_8
  let main_v26 : IVec S5632 1 := cmpf .olt main_v24 main_v25
  let main_c_9 : IVec S_ 1 := constantI S_ 1 1#1
  let main_v27 : IVec S_ 1 := (fun x v => Host.reduce IntOp.andi x v reducesTo_S5632_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S2x2048x2048 .f32) (main_arg1 : FVec F S5632x2048 .f32) (main_arg2 : FVec F S5632x2048 .f32) (main_arg3 : FVec F S2048x5632 .f32) (main_arg4 : FVec F S5632 .f32) (main_arg5 : FVec F S5632 .f32) (main_arg6 : FVec F S2048 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S5632x2048 .f32 := Host.absf main_arg1
  let main_cst_0 : FVec F S_ .f32 := constant S_ .f32 0x7F800000#32
  let main_v5 : FVec F S5632x2048 .f32 := broadcastInDim S5632x2048 ![] bcast_S_S5632x2048 main_cst_0
  let main_v6 : IVec S5632x2048 1 := cmpf .olt main_v4 main_v5
  let main_c_1 : IVec S_ 1 := constantI S_ 1 1#1
  let main_v7 : IVec S_ 1 := (fun x v => Host.reduce IntOp.andi x v reducesTo_S5632x2048_S_d0_1 h_S_) main_v6 main_c_1
  let main_v8 : IVec S_ 1 := andi main_v3 main_v7
  let main_v9 : FVec F S5632x2048 .f32 := Host.absf main_arg2
  let main_cst_2 : FVec F S_ .f32 := constant S_ .f32 0x7F800000#32
  let main_v10 : FVec F S5632x2048 .f32 := broadcastInDim S5632x2048 ![] bcast_S_S5632x2048 main_cst_2
  let main_v11 : IVec S5632x2048 1 := cmpf .olt main_v9 main_v10
  let main_c_3 : IVec S_ 1 := constantI S_ 1 1#1
  let main_v12 : IVec S_ 1 := (fun x v => Host.reduce IntOp.andi x v reducesTo_S5632x2048_S_d0_1 h_S_) main_v11 main_c_3
  let main_v13 : IVec S_ 1 := andi main_v8 main_v12
  let main_v14 : FVec F S2048x5632 .f32 := Host.absf main_arg3
  let main_cst_4 : FVec F S_ .f32 := constant S_ .f32 0x7F800000#32
  let main_v15 : FVec F S2048x5632 .f32 := broadcastInDim S2048x5632 ![] bcast_S_S2048x5632 main_cst_4
  let main_v16 : IVec S2048x5632 1 := cmpf .olt main_v14 main_v15
  fn_part1 (F := F) main_arg4 main_arg5 main_arg6 main_v13 main_v16
-- ==== Kernel.lean ====
abbrev S2x2048x2048 : Shape := ⟨3, ![2, 2048, 2048]⟩
abbrev S5632x2048 : Shape := ⟨2, ![5632, 2048]⟩
abbrev S2048x5632 : Shape := ⟨2, ![2048, 5632]⟩
abbrev S5632 : Shape := ⟨1, ![5632]⟩
abbrev S2048 : Shape := ⟨1, ![2048]⟩
abbrev S4096x2048 : Shape := ⟨2, ![4096, 2048]⟩
abbrev S512x2048 : Shape := ⟨2, ![512, 2048]⟩
abbrev S256x2048 : Shape := ⟨2, ![256, 2048]⟩
abbrev S2048x256 : Shape := ⟨2, ![2048, 256]⟩
abbrev S256 : Shape := ⟨1, ![256]⟩
abbrev S512x256 : Shape := ⟨2, ![512, 256]⟩
abbrev S1x256 : Shape := ⟨2, ![1, 256]⟩
abbrev S1x2048 : Shape := ⟨2, ![1, 2048]⟩

abbrev nBuf : Space → Nat
  | .hbm => 10
  | .vmem => 14
  | .smem => 0
  | _ => 0

abbrev bufTy : (tb : Table) → Fin (tcTables nBuf tb) → BufTy
  | .hbm, ⟨0, _⟩ => ⟨S2x2048x2048, .f32⟩
  | .hbm, ⟨1, _⟩ => ⟨S5632x2048, .f32⟩
  | .hbm, ⟨2, _⟩ => ⟨S5632x2048, .f32⟩
  | .hbm, ⟨3, _⟩ => ⟨S2048x5632, .f32⟩
  | .hbm, ⟨4, _⟩ => ⟨S5632, .f32⟩
  | .hbm, ⟨5, _⟩ => ⟨S5632, .f32⟩
  | .hbm, ⟨6, _⟩ => ⟨S2048, .f32⟩
  | .hbm, ⟨7, _⟩ => ⟨S4096x2048, .f32⟩
  | .hbm, ⟨8, _⟩ => ⟨S4096x2048, .f32⟩
  | .hbm, ⟨9, _⟩ => ⟨S2x2048x2048, .f32⟩
  | .local _ .vmem, ⟨0, _⟩ => ⟨S512x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S2048x256, .f32⟩
  | .local _ .vmem, ⟨6, _⟩ => ⟨S2048x256, .f32⟩
  | .local _ .vmem, ⟨7, _⟩ => ⟨S256, .f32⟩
  | .local _ .vmem, ⟨8, _⟩ => ⟨S256, .f32⟩
  | .local _ .vmem, ⟨9, _⟩ => ⟨S256, .f32⟩
  | .local _ .vmem, ⟨10, _⟩ => ⟨S256, .f32⟩
  | .local _ .vmem, ⟨11, _⟩ => ⟨S2048, .f32⟩
  | .local _ .vmem, ⟨12, _⟩ => ⟨S512x2048, .f32⟩
  | .local _ .vmem, ⟨13, _⟩ => ⟨S512x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨2, ![8, 22], ![false, false]⟩

def k0_cond2 (i : grid0.Coords) : BitVec 1 :=
  let arg1 : BitVec 32 := BitVec.ofNat 32 (i 1).val
  let c21_i32 : BitVec 32 := 21#32
  let v32 : BitVec 1 := Scalar.cmpi .eq arg1 c21_i32
  let v33 : BitVec 32 := Scalar.extui v32
  let c0_i32_16 : BitVec 32 := 0#32
  let v34 : BitVec 1 := Scalar.cmpi .ne v33 c0_i32_16
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

class Facts₀ : Prop where
  shapeCasts_S2x2048x2048_S4096x2048 : S2x2048x2048.ShapeCasts S4096x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S2048x256_S2048x256_0_0 : ∀ a, (![0, 0] : Fin 2 → Nat) a + S2048x256.size a ≤ S2048x256.size a
  h_S2048x256 : 0 < S2048x256.numel
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S512x2048 : S1x2048.Broadcasts S512x2048
  shapeCasts_S4096x2048_S2x2048x2048 : S4096x2048.ShapeCasts S2x2048x2048
  dot_S512x2048_S256x2048_S512x256_1_1_0_0_n_n_wf : DotDims.WF S512x2048 S256x2048 S512x256 [1] [1] [0] [0] [] []
  dot_S512x256_S2048x256_S512x2048_1_1_0_0_n_n_wf : DotDims.WF S512x256 S2048x256 S512x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S5632x2048.size a
  hwx0_1 : ∀ i : grid0.Coords, EltTy.bits .f32 = 32 ∨ (Rect.block (s := S5632x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S5632x2048.size a
  hwx0_2 : ∀ i : grid0.Coords, EltTy.bits .f32 = 32 ∨ (Rect.block (s := S5632x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x5632.size a
  hwx0_3 : ∀ i : grid0.Coords, EltTy.bits .f32 = 32 ∨ (Rect.block (s := S2048x5632) S2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S5632.size a
  hwx0_4 : ∀ i : grid0.Coords, EltTy.bits .f32 = 32 ∨ (Rect.block (s := S5632) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S5632.size a
  hwx0_5 : ∀ i : grid0.Coords, EltTy.bits .f32 = 32 ∨ (Rect.block (s := S5632) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S2048.size a
  hwx0_6 : ∀ i : grid0.Coords, EltTy.bits .f32 = 32 ∨ (Rect.block (s := S2048) S2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S4096x2048.size a
  hwx0_7 : ∀ i : grid0.Coords, EltTy.bits .f32 = 32 ∨ (Rect.block (s := S4096x2048) S512x2048.size (cc0_transform_7 i) (hinb0_7 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf
def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf

abbrev win0_0 : Pipeline.Window sig grid0 :=
  Pipeline.Window.ofSpec (Memref.whole main_v0) S512x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S512x2048.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S2x2048x2048 : Shape := ⟨3, ![2, 2048, 2048]⟩
abbrev S5632x2048 : Shape := ⟨2, ![5632, 2048]⟩
abbrev S2048x5632 : Shape := ⟨2, ![2048, 5632]⟩
abbrev S5632 : Shape := ⟨1, ![5632]⟩
abbrev S2048 : Shape := ⟨1, ![2048]⟩
abbrev S4096x2048 : Shape := ⟨2, ![4096, 2048]⟩
abbrev S4096x5632 : Shape := ⟨2, ![4096, 5632]⟩
abbrev S1x5632 : Shape := ⟨2, ![1, 5632]⟩
abbrev S_ : Shape := ⟨0, ![]⟩
abbrev S1x2048 : Shape := ⟨2, ![1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S5632x2048, .f32⟩
  | .hbm, ⟨2, _⟩ => ⟨S5632x2048, .f32⟩
  | .hbm, ⟨3, _⟩ => ⟨S2048x5632, .f32⟩
  | .hbm, ⟨4, _⟩ => ⟨S5632, .f32⟩
  | .hbm, ⟨5, _⟩ => ⟨S5632, .f32⟩
  | .hbm, ⟨6, _⟩ => ⟨S2048, .f32⟩
  | .hbm, ⟨7, _⟩ => ⟨S4096x2048, .f32⟩
  | .hbm, ⟨8, _⟩ => ⟨S4096x5632, .f32⟩
  | .hbm, ⟨9, _⟩ => ⟨S1x5632, .f32⟩
  | .hbm, ⟨10, _⟩ => ⟨S4096x5632, .f32⟩
  | .hbm, ⟨11, _⟩ => ⟨S4096x5632, .f32⟩
  | .hbm, ⟨12, _⟩ => ⟨S4096x5632, .f32⟩
  | .hbm, ⟨13, _⟩ => ⟨S1x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S_, .f32⟩
  | .hbm, ⟨19, _⟩ => ⟨S4096x5632, .f32⟩
  | .hbm, ⟨20, _⟩ => ⟨S4096x5632, .f32⟩
  | .hbm, ⟨21, _⟩ => ⟨S_, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩

abbrev nD : Nat := 1
abbrev τ : Topo := Topo.v7x

variable {F : FTy → Type} [FloatOps F]

class Facts₀ : Prop where
  shapeCasts_S2x2048x2048_S4096x2048 : S2x2048x2048.ShapeCasts S4096x2048
  bcast_S5632_S1x5632_1 : S5632.BroadcastsInDim S1x5632 (![1] : Fin 1 → Fin S1x5632.rank)
  bcast_S1x5632_S4096x5632_0_1 : S1x5632.BroadcastsInDim S4096x5632 (![0, 1] : Fin 2 → Fin S4096x5632.rank)
  bcast_S_S4096x5632 : S_.BroadcastsInDim S4096x5632 (![] : Fin 0 → Fin S4096x5632.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  shapeCasts_S4096x2048_S2x2048x2048 : S4096x2048.ShapeCasts S2x2048x2048
  dot_S4096x2048_S5632x2048_S4096x5632_1_1_0_0_n_n_wf : DotDims.WF S4096x2048 S5632x2048 S4096x5632 [1] [1] [0] [0] [] []
  dot_S4096x5632_S2048x5632_S4096x2048_1_1_0_0_n_n_wf : DotDims.WF S4096x5632 S2048x5632 S4096x2048 [1] [1] [0] [0] [] []

variable [Facts₀]

def dot_S4096x2048_S5632x2048_S4096x5632_1_1_0_0_n_n : DotDims S4096x2048 S5632x2048 S4096x5632 where
  lhsContracting := [1]
  rhsContracting := [1]
  lhsNonContracting := [0]
  rhsNonContracting := [0]
  lhsBatch := []
  rhsBatch := []
  wf := dot_S4096x2048_S5632x2048_S4096x5632_1_1_0_0_n_n_wf
def dot_S4096x5632_S2048x5632_S4096x2048_1_1_0_0_n_n : DotDims S4096x5632 S2048x5632 S4096x2048 where
  lhsContracting := [1]
  rhsContracting := [1]
  lhsNonContracting := [0]
  rhsNonContracting := [0]
  lhsBatch := []
  rhsBatch := []
  wf := dot_S4096x5632_S2048x5632_S4096x2048_1_1_0_0_n_n_wf

class Facts : Prop extends Facts₀ where

variable [Facts]
-- ==== Proof.GatedMlp.lean ====
/-
  The gated feed-forward layer both programs compute, as ONE function of the argument arrays over the extended
  reals, and the one law that joins the two programs: a sum over the 5632 intermediate channels is the sum, tile
  after tile, of its 22 tiles of 256 channels.

  For a token `t`, an intermediate channel `i` and a hidden channel `h`:
    gate t i   = (Σ_k x[t,k] · gate_w[i,k]) · gate_s[i]
    up   t i   = (Σ_k x[t,k] · up_w[i,k])   · up_s[i]
    hidden t i = gate t i · logistic (gate t i) · up t i            (silu of the gate, times the up projection)
    out t h    = (Σ_i hidden t i · down_w[h,i]) · down_s[h]
  Only commutativity and associativity of the extended reals' addition is used: no term is moved across a sum, so
  nothing here asks the inputs to be finite.
-/
import Idealize.ShloMosaic.PureOps.Ideal
import Idealize.ShloMosaic.Lib.ValueIdx
import Mathlib.Algebra.BigOperators.Fin

noncomputable section

namespace Cert.GatedMlp

open Idealize.ShloMosaic Idealize.ShloMosaic.ValueIdx

/-- Tokens by hidden channels; intermediate by hidden channels; hidden by intermediate channels; one scale per
    intermediate channel; one scale per hidden channel. -/
abbrev TokHid : Shape := ⟨2, ![4096, 2048]⟩
abbrev IntHid : Shape := ⟨2, ![5632, 2048]⟩
abbrev HidInt : Shape := ⟨2, ![2048, 5632]⟩
abbrev IntVec : Shape := ⟨1, ![5632]⟩
abbrev HidVec : Shape := ⟨1, ![2048]⟩

section Layer
variable (x : TokHid.Idx → EReal) (gw uw : IntHid.Idx → EReal) (dw : HidInt.Idx → EReal)
  (gs us : IntVec.Idx → EReal) (ds : HidVec.Idx → EReal)

/-- A scaled projection of token `t` onto intermediate channel `i`: the row product with the weight's row `i`,
    then that channel's scale. -/
def proj (w : IntHid.Idx → EReal) (s : IntVec.Idx → EReal) (t : Fin 4096) (i : Fin 5632) : EReal :=
  (∑ k : Fin 2048, x (ix2 t k) * w (ix2 i k)) * s (ix1 i)

/-- The gated activation: silu of the gate projection (the gate times its logistic), times the up projection. -/
def hidden (t : Fin 4096) (i : Fin 5632) : EReal :=
  proj x gw gs t i * Ideal.logistic (proj x gw gs t i) * proj x uw us t i

/-- Channel `i`'s term of the down projection of token `t` onto hidden channel `h`. -/
def term (t : Fin 4096) (h : Fin 2048) (i : Fin 5632) : EReal :=
  hidden x gw uw gs us t i * dw (ix2 h i)

/-- The layer's output: the down projection, summed over all intermediate channels, then the hidden channel's scale. -/
def mlp : TokHid.Idx → EReal := fun j =>
  (∑ i : Fin 5632, term x gw uw dw gs us (j 0) (j 1) i) * ds (ix1 (j 1))

end Layer

/-! ## A sum over the intermediate channels, tile by tile -/

/-- Channel `b` of tile `a`: the intermediate axis is 22 tiles of 256 channels. -/
def tileIx (a : Fin 22) (b : Fin 256) : Fin 5632 := ⟨a.val * 256 + b.val, by have := a.isLt; have := b.isLt; omega⟩

/-- Row `r` of row block `a`: the token axis is 8 blocks of 512 rows. -/
def tokIx (a : Fin 8) (r : Fin 512) : Fin 4096 := ⟨a.val * 512 + r.val, by have := a.isLt; have := r.isLt; omega⟩

/-- The sum of `f` over tile `n` (zero past the last tile). -/
def tileSum (f : Fin 5632 → EReal) (n : ℕ) : EReal :=
  if h : n < 22 then ∑ b : Fin 256, f (tileIx ⟨n, h⟩ b) else 0

/-- The running sum after tile `n`: tiles `0 … n`. -/
def runSum (f : Fin 5632 → EReal) (n : ℕ) : EReal := ∑ a ∈ Finset.range (n + 1), tileSum f a

theorem runSum_zero (f : Fin 5632 → EReal) : runSum f 0 = tileSum f 0 := by
  unfold runSum; rw [Finset.sum_range_one]

theorem runSum_succ (f : Fin 5632 → EReal) (n : ℕ) : runSum f (n + 1) = runSum f n + tileSum f (n + 1) := by
  unfold runSum; rw [Finset.sum_range_succ]

/-- A sum over `T · N` indices is the double sum over `T` groups of `N`, in any commutative monoid. -/
theorem sum_groups {M : Type*} [AddCommMonoid M] (T N : ℕ) (f : Fin (T * N) → M) :
    ∑ i, f i = ∑ a : Fin T, ∑ b : Fin N, f (finProdFinEquiv (a, b)) := by
  rw [← finProdFinEquiv.sum_comp, Fintype.sum_prod_type]

/-- After the last tile the running sum is the whole sum: the 22 tiles of 256 partition the 5632 channels. -/
theorem runSum_last (f : Fin 5632 → EReal) : runSum f 21 = ∑ i, f i := by
  unfold runSum
  have h1 : (∑ i, f i) = ∑ a : Fin 22, ∑ b : Fin 256, f (tileIx a b) := by
    rw [show (∑ i, f i) = ∑ a : Fin 22, ∑ b : Fin 256, f (finProdFinEquiv (a, b)) from sum_groups 22 256 f]
    refine Finset.sum_congr rfl fun a _ => Finset.sum_congr rfl fun b _ => congrArg f (Fin.ext ?_)
    show b.val + 256 * a.val = a.val * 256 + b.val
    omega
  have h2 : ∀ a : Fin 22, (∑ b : Fin 256, f (tileIx a b)) = tileSum f a.val := fun a => by
    unfold tileSum; rw [dif_pos a.isLt]
  rw [h1, Finset.sum_congr rfl fun a _ => h2 a]
  exact (Fin.sum_univ_eq_sum_range (fun n => tileSum f n) 22).symm

end Cert.GatedMlp

end
-- ==== Proof.RefMlp.lean ====
/-
  The reference, read one operation at a time at the ideal values, is the gated feed-forward layer of its reshaped
  input: each projection a row product times the channel's scale, jnp's expansion of the logistic function into
  negate, exponential, add and divide the logistic itself (the literal `1.0` is the real one), the products grouped
  as the layer groups them, and the last contraction the sum over all 5632 intermediate channels.
-/
import proofs.«169726_j4638564680470_1_alg».proof.Proof.Gen.ReferenceIdeal.Read
import proofs.«169726_j4638564680470_1_alg».proof.Proof.GatedMlp
import Idealize.ShloMosaic.Lib.IdealHost

noncomputable section

namespace Cert.ReferenceIdeal.Layer

open Cert.ReferenceIdeal Cert.ReferenceIdeal.Read Cert.GatedMlp
open Idealize.ShloMosaic Idealize.ShloMosaic.ValueIdx

/-- The operand indices of the two first contractions, and of the channel scale's two broadcasts, in coordinates. -/
theorem lidx_proj (j : S4096x5632.Idx) (k : Fin 2048) : lidx_main_v1 j k = ix2 (j 0) k :=
  funext fun a => by match a with | ⟨0, _⟩ => rfl | ⟨1, _⟩ => rfl
theorem ridx_proj (j : S4096x5632.Idx) (k : Fin 2048) : ridx_main_v1 j k = ix2 (j 1) k :=
  funext fun a => by match a with | ⟨0, _⟩ => rfl | ⟨1, _⟩ => rfl
theorem idx_scale (j : S4096x5632.Idx) : idx_main_v2 (idx_main_v3 j) = ix1 (j 1) :=
  funext fun a => by match a with | ⟨0, _⟩ => rfl

/-- The gate stage is the scaled projection onto the gate weights. -/
theorem gate_apply (x0 : (⟨S2x2048x2048, .f32⟩ : BufTy).Contents (Elt Ideal)) (x1 : (⟨S5632x2048, .f32⟩ : BufTy).Contents (Elt Ideal))
    (x4 : (⟨S5632, .f32⟩ : BufTy).Contents (Elt Ideal)) (j : S4096x5632.Idx) :
    val_main_v4 (F := Ideal) x0 x1 x4 j = proj (val_main_v0 (F := Ideal) x0) x1 x4 (j 0) (j 1) := by
  rw [val_main_v4_apply, val_main_v1_apply, val_main_v3_apply, val_main_v2_apply, idx_scale]
  simp only [lidx_proj, ridx_proj]
  rfl

/-- The up stage is the scaled projection onto the up weights (the same operations on other arguments). -/
theorem up_apply (x0 : (⟨S2x2048x2048, .f32⟩ : BufTy).Contents (Elt Ideal)) (x2 : (⟨S5632x2048, .f32⟩ : BufTy).Contents (Elt Ideal))
    (x5 : (⟨S5632, .f32⟩ : BufTy).Contents (Elt Ideal)) (j : S4096x5632.Idx) :
    val_main_v8 (F := Ideal) x0 x2 x5 j = proj (val_main_v0 (F := Ideal) x0) x2 x5 (j 0) (j 1) := by
  rw [val_main_v8_apply, val_main_v5_apply, val_main_v7_apply, val_main_v6_apply]
  have e : idx_main_v6 (idx_main_v7 j) = ix1 (j 1) := funext fun a => by match a with | ⟨0, _⟩ => rfl
  have el : ∀ k, lidx_main_v5 j k = ix2 (j 0) k := fun k => funext fun a => by match a with | ⟨0, _⟩ => rfl | ⟨1, _⟩ => rfl
  have er : ∀ k, ridx_main_v5 j k = ix2 (j 1) k := fun k => funext fun a => by match a with | ⟨0, _⟩ => rfl | ⟨1, _⟩ => rfl
  rw [e]
  simp only [el, er]
  rfl

/-- jnp's logistic, spelt `1 / (1 + exp (-g))` with the literal one, is the logistic function. -/
theorem sigmoid_apply (x0 : (⟨S2x2048x2048, .f32⟩ : BufTy).Contents (Elt Ideal)) (x1 : (⟨S5632x2048, .f32⟩ : BufTy).Contents (Elt Ideal))
    (x4 : (⟨S5632, .f32⟩ : BufTy).Contents (Elt Ideal)) (j : S4096x5632.Idx) :
    val_main_call0_v5 (F := Ideal) x0 x1 x4 j = Ideal.logistic (val_main_v4 (F := Ideal) x0 x1 x4 j) := by
  rw [val_main_call0_v5_apply, val_main_call0_v4_apply, val_main_call0_cst_0_apply, val_main_call0_v3_apply,
    val_main_call0_v2_apply, val_main_call0_cst_apply, val_main_call0_v1_apply, val_main_call0_v0_apply]
  show Ideal.div (Ideal.ofBits .f32 0x3F800000#32) (Ideal.ofBits .f32 0x3F800000#32 + Ideal.exp (-(val_main_v4 (F := Ideal) x0 x1 x4 j))) = _
  rw [Ideal.ofBits_one_f32]
  rfl

/-- The gated activation stage. -/
theorem hidden_apply (x0 : (⟨S2x2048x2048, .f32⟩ : BufTy).Contents (Elt Ideal)) (x1 x2 : (⟨S5632x2048, .f32⟩ : BufTy).Contents (Elt Ideal))
    (x4 x5 : (⟨S5632, .f32⟩ : BufTy).Contents (Elt Ideal)) (j : S4096x5632.Idx) :
    val_main_v10 (F := Ideal) x0 x1 x2 x4 x5 j = hidden (val_main_v0 (F := Ideal) x0) x1 x2 x4 x5 (j 0) (j 1) := by
  rw [val_main_v10_apply, val_main_v9_apply, sigmoid_apply, gate_apply, up_apply]
  rfl

/-- The reference's result before its last reshape is the layer of its reshaped input. -/
theorem stage_eq_mlp (x0 : (⟨S2x2048x2048, .f32⟩ : BufTy).Contents (Elt Ideal)) (x1 x2 : (⟨S5632x2048, .f32⟩ : BufTy).Contents (Elt Ideal))
    (x3 : (⟨S2048x5632, .f32⟩ : BufTy).Contents (Elt Ideal)) (x4 x5 : (⟨S5632, .f32⟩ : BufTy).Contents (Elt Ideal))
    (x6 : (⟨S2048, .f32⟩ : BufTy).Contents (Elt Ideal)) :
    val_main_v14 (F := Ideal) x0 x1 x2 x3 x4 x5 x6 = mlp (val_main_v0 (F := Ideal) x0) x1 x2 x3 x4 x5 x6 := by
  funext i
  rw [val_main_v14_apply, val_main_v11_apply, val_main_v13_apply, val_main_v12_apply]
  have e : idx_main_v12 (idx_main_v13 i) = ix1 (i 1) := funext fun a => by match a with | ⟨0, _⟩ => rfl
  have er : ∀ k, ridx_main_v11 i k = ix2 (i 1) k := fun k => funext fun a => by match a with | ⟨0, _⟩ => rfl | ⟨1, _⟩ => rfl
  rw [e]
  simp only [hidden_apply, er]
  rfl

end Cert.ReferenceIdeal.Layer

end
-- ==== Proof.Pieces.lean ====
/-
  What each control case of the kernel body leaves behind, as values of the blocks it loads. The body has three cases
  along the intermediate-tile axis of the grid: at the first tile it zeroes the accumulator and adds the tile's partial
  down projection; at a middle tile it adds the partial to what the tile before left; at the last tile it does the
  same and stores the accumulator times the hidden channels' scales into the output block. Each store covers its whole
  buffer at offset zero, so what a buffer ends holding is its last store's value, and a load that follows a store
  reads that store's value.
-/
import proofs.«169726_j4638564680470_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- A middle tile: the accumulator ends at what it held plus the tile's partial down projection. -/
theorem acc_middle (c : Dev nD) (i : grid0.Coords) (arg2 : Memref sig .tc .vmem S512x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : ¬cond0_1 i) (x0 : Vec F S512x2048 .f32) (x1 : Vec F S256x2048 .f32) (x2 : Vec F S256x2048 .f32) (x3 : Vec F S2048x256 .f32) (x4 : Vec F S256 .f32) (x5 : Vec F S256 .f32) (x6 : Vec F S2048 .f32) (xs0 : Vec F S512x2048 .f32) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay3 x0 x1 x2 x4 x5 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread, View.ld_unit_zero (S := S512x2048) hz2, View.ld_unit_zero (S := S256x2048) hz2, View.ld_unit_zero (S := S2048x256) hz2, View.ld_unit_zero (S := S256) hz1, View.ld_unit_zero (S := S2048) hz1, View.readCov_unit_zero (S := S512x2048) _ hz2]

/-- The first tile: the accumulator is zeroed first, so it ends at zero plus the tile's partial. -/
theorem acc_first (c : Dev nD) (i : grid0.Coords) (arg2 : Memref sig .tc .vmem S512x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048 .f32) (harg8 : arg8.IsWhole) (arg9 : Memref sig .tc .vmem S512x2048 .f32) (harg9 : arg9.IsWhole) (arg10 : Memref sig .tc .vmem S512x2048 .f32) (harg10 : arg10.IsWhole) (hc0 : cond0_0 i) (hc1 : ¬cond0_1 i) (x0 : Vec F S512x2048 .f32) (x1 : Vec F S256x2048 .f32) (x2 : Vec F S256x2048 .f32) (x3 : Vec F S2048x256 .f32) (x4 : Vec F S256 .f32) (x5 : Vec F S256 .f32) (x6 : Vec F S2048 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay3 x0 x1 x2 x4 x5 x3 (k0_pay2 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S512x2048) hz2]
  simp only [View.readAt_eq_ld, harg2.read_unread, harg3.read_unread, harg4.read_unread, harg5.read_unread, harg6.read_unread, harg7.read_unread, harg8.read_unread, harg10.read_unread, View.ld_unit_zero (S := S512x2048) hz2, View.ld_unit_zero (S := S256x2048) hz2, View.ld_unit_zero (S := S2048x256) hz2, View.ld_unit_zero (S := S256) hz1, View.ld_unit_zero (S := S2048) hz1, View.readCov_unit_zero (S := S512x2048) _ hz2]

/-- The last tile: the accumulator as at a middle tile, -/
theorem acc_last (c : Dev nD) (i : grid0.Coords) (arg2 : Memref sig .tc .vmem S512x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : cond0_1 i) (x0 : Vec F S512x2048 .f32) (x1 : Vec F S256x2048 .f32) (x2 : Vec F S256x2048 .f32) (x3 : Vec F S2048x256 .f32) (x4 : Vec F S256 .f32) (x5 : Vec F S256 .f32) (x6 : Vec F S2048 .f32) (xs0 : Vec F S512x2048 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay3 x0 x1 x2 x4 x5 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread, View.ld_unit_zero (S := S512x2048) hz2, View.ld_unit_zero (S := S256x2048) hz2, View.ld_unit_zero (S := S2048x256) hz2, View.ld_unit_zero (S := S256) hz1, View.ld_unit_zero (S := S2048) hz1, View.readCov_unit_zero (S := S512x2048) _ hz2]

/-- and the output block: that accumulator times the hidden channels' scales. -/
theorem out_last (c : Dev nD) (i : grid0.Coords) (arg2 : Memref sig .tc .vmem S512x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S256 .f32) (harg6 : arg6.IsWhole) (arg7 : Memref sig .tc .vmem S256 .f32) (harg7 : arg7.IsWhole) (arg8 : Memref sig .tc .vmem S2048 .f32) (harg8 : arg8.IsWhole) (arg9 : Memref sig .tc .vmem S512x2048 .f32) (harg9 : arg9.IsWhole) (arg10 : Memref sig .tc .vmem S512x2048 .f32) (harg10 : arg10.IsWhole) (hc0 : ¬cond0_0 i) (hc1 : cond0_1 i) (x0 : Vec F S512x2048 .f32) (x1 : Vec F S256x2048 .f32) (x2 : Vec F S256x2048 .f32) (x3 : Vec F S2048x256 .f32) (x4 : Vec F S256 .f32) (x5 : Vec F S256 .f32) (x6 : Vec F S2048 .f32) (xs0 : Vec F S512x2048 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay1 (k0_pay3 x0 x1 x2 x4 x5 x3 xs0) x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread, View.ld_unit_zero (S := S512x2048) hz2, View.ld_unit_zero (S := S256x2048) hz2, View.ld_unit_zero (S := S2048x256) hz2, View.ld_unit_zero (S := S256) hz1, View.ld_unit_zero (S := S2048) hz1, View.readCov_unit_zero (S := S512x2048) _ hz2]

end Cert.KernelIdeal.Pieces

end
-- ==== Proof.Blocks.lean ====
/-
  The grid's geometry, and the accumulator's step from one grid position to the next. Position `n` of the 8 × 22 grid is
  row block `n / 22` and intermediate tile `n % 22`: its token block is rows `512 · (n / 22) …` of the reshaped input,
  its weight tiles are rows (for the down weight, columns) `256 · (n % 22) …` of the weights, its tile scales are those
  entries of the scale vectors, and the hidden scales are the whole vector. At a tile-0 position the accumulator restarts
  from zero; at every other position it continues from what the position before left; at a tile-21 position the output
  block is that accumulator times the hidden scales.
-/
import proofs.«169726_j4638564680470_1_alg».proof.Proof.Pieces
import proofs.«169726_j4638564680470_1_alg».proof.Proof.GatedMlp
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.GatedMlp
open Idealize.ShloMosaic.ValueIdx

variable {F : FTy → Type} [FloatOps F]
variable (m : (ℓ : Loc nD τ sig) → Buf (Elt F) ℓ)

/-- The row block and the intermediate tile of grid position `n`. -/
def rowOf (n : ℕ) : Fin 8 := ⟨n / 22 % 8, Nat.mod_lt _ (by decide)⟩
def tileOf (n : ℕ) : Fin 22 := ⟨n % 22, Nat.mod_lt _ (by decide)⟩

/-- The position's blocks, and the arrays they are blocks of, at their literal types. -/
abbrev xB (c : Dev nD) (t : Fin cfg0.N) : Vec F S512x2048 .f32 := iblk m c 0 t
abbrev gB (c : Dev nD) (t : Fin cfg0.N) : Vec F S256x2048 .f32 := iblk m c 1 t
abbrev uB (c : Dev nD) (t : Fin cfg0.N) : Vec F S256x2048 .f32 := iblk m c 2 t
abbrev dB (c : Dev nD) (t : Fin cfg0.N) : Vec F S2048x256 .f32 := iblk m c 3 t
abbrev gsB (c : Dev nD) (t : Fin cfg0.N) : Vec F S256 .f32 := iblk m c 4 t
abbrev usB (c : Dev nD) (t : Fin cfg0.N) : Vec F S256 .f32 := iblk m c 5 t
abbrev dsB (c : Dev nD) (t : Fin cfg0.N) : Vec F S2048 .f32 := iblk m c 6 t
abbrev xA (c : Dev nD) : Vec F S4096x2048 .f32 := V m c main_v0
abbrev gA (c : Dev nD) : Vec F S5632x2048 .f32 := V m c main_arg1
abbrev uA (c : Dev nD) : Vec F S5632x2048 .f32 := V m c main_arg2
abbrev dA (c : Dev nD) : Vec F S2048x5632 .f32 := V m c main_arg3
abbrev gsA (c : Dev nD) : Vec F S5632 .f32 := V m c main_arg4
abbrev usA (c : Dev nD) : Vec F S5632 .f32 := V m c main_arg5
abbrev dsA (c : Dev nD) : Vec F S2048 .f32 := V m c main_arg6

/-- The printed index maps, decided over the 176 grid positions. -/
theorem idx_facts : ∀ t : Fin cfg0.N,
    win0_0.index t (0 : Fin 2) = t.val / 22 % 8 ∧ win0_0.index t (1 : Fin 2) = 0
    ∧ win0_1.index t (0 : Fin 2) = t.val % 22 ∧ win0_1.index t (1 : Fin 2) = 0
    ∧ win0_2.index t (0 : Fin 2) = t.val % 22 ∧ win0_2.index t (1 : Fin 2) = 0
    ∧ win0_3.index t (0 : Fin 2) = 0 ∧ win0_3.index t (1 : Fin 2) = t.val % 22
    ∧ win0_4.index t (0 : Fin 1) = t.val % 22
    ∧ win0_5.index t (0 : Fin 1) = t.val % 22
    ∧ win0_6.index t (0 : Fin 1) = 0
    ∧ win0_7.index t (0 : Fin 2) = t.val / 22 % 8 ∧ win0_7.index t (1 : Fin 2) = 0 :=
  (by decide +kernel : ∀ t : Fin grid0.N, _)

/-! ## Each block is its array read at the block's rows and columns -/

theorem xB_apply (c : Dev nD) (t : Fin cfg0.N) (r : Fin 512) (k : Fin 2048) :
    xB m c t (ix2 r k) = xA m c (ix2 (tokIx (rowOf t.val) r) k) := by
  obtain ⟨e0, e1, -⟩ := idx_facts t
  show V m c main_v0 (((cfg0.win 0).blk t).view.emb (ix2 r k)) = V m c main_v0 _
  refine congrArg (V m c main_v0) (funext fun a => Fin.ext ?_)
  match a with
  | ⟨0, _⟩ => show win0_0.index t (0 : Fin 2) * 512 + 1 * r.val = t.val / 22 % 8 * 512 + r.val; rw [e0]; omega
  | ⟨1, _⟩ => show win0_0.index t (1 : Fin 2) * 2048 + 1 * k.val = k.val; rw [e1]; omega

theorem gB_apply (c : Dev nD) (t : Fin cfg0.N) (b : Fin 256) (k : Fin 2048) :
    gB m c t (ix2 b k) = gA m c (ix2 (tileIx (tileOf t.val) b) k) := by
  obtain ⟨-, -, e0, e1, -⟩ := idx_facts t
  show V m c main_arg1 (((cfg0.win 1).blk t).view.emb (ix2 b k)) = V m c main_arg1 _
  refine congrArg (V m c main_arg1) (funext fun a => Fin.ext ?_)
  match a with
  | ⟨0, _⟩ => show win0_1.index t (0 : Fin 2) * 256 + 1 * b.val = t.val % 22 * 256 + b.val; rw [e0]; omega
  | ⟨1, _⟩ => show win0_1.index t (1 : Fin 2) * 2048 + 1 * k.val = k.val; rw [e1]; omega

theorem uB_apply (c : Dev nD) (t : Fin cfg0.N) (b : Fin 256) (k : Fin 2048) :
    uB m c t (ix2 b k) = uA m c (ix2 (tileIx (tileOf t.val) b) k) := by
  obtain ⟨-, -, -, -, e0, e1, -⟩ := idx_facts t
  show V m c main_arg2 (((cfg0.win 2).blk t).view.emb (ix2 b k)) = V m c main_arg2 _
  refine congrArg (V m c main_arg2) (funext fun a => Fin.ext ?_)
  match a with
  | ⟨0, _⟩ => show win0_2.index t (0 : Fin 2) * 256 + 1 * b.val = t.val % 22 * 256 + b.val; rw [e0]; omega
  | ⟨1, _⟩ => show win0_2.index t (1 : Fin 2) * 2048 + 1 * k.val = k.val; rw [e1]; omega

theorem dB_apply (c : Dev nD) (t : Fin cfg0.N) (h : Fin 2048) (b : Fin 256) :
    dB m c t (ix2 h b) = dA m c (ix2 h (tileIx (tileOf t.val) b)) := by
  obtain ⟨-, -, -, -, -, -, e0, e1, -⟩ := idx_facts t
  show V m c main_arg3 (((cfg0.win 3).blk t).view.emb (ix2 h b)) = V m c main_arg3 _
  refine congrArg (V m c main_arg3) (funext fun a => Fin.ext ?_)
  match a with
  | ⟨0, _⟩ => show win0_3.index t (0 : Fin 2) * 2048 + 1 * h.val = h.val; rw [e0]; omega
  | ⟨1, _⟩ => show win0_3.index t (1 : Fin 2) * 256 + 1 * b.val = t.val % 22 * 256 + b.val; rw [e1]; omega

theorem gsB_apply (c : Dev nD) (t : Fin cfg0.N) (b : Fin 256) :
    gsB m c t (ix1 b) = gsA m c (ix1 (tileIx (tileOf t.val) b)) := by
  obtain ⟨-, -, -, -, -, -, -, -, e0, -⟩ := idx_facts t
  show V m c main_arg4 (((cfg0.win 4).blk t).view.emb (ix1 b)) = V m c main_arg4 _
  refine congrArg (V m c main_arg4) (funext fun a => Fin.ext ?_)
  match a with
  | ⟨0, _⟩ => show win0_4.index t (0 : Fin 1) * 256 + 1 * b.val = t.val % 22 * 256 + b.val; rw [e0]; omega

theorem usB_apply (c : Dev nD) (t : Fin cfg0.N) (b : Fin 256) :
    usB m c t (ix1 b) = usA m c (ix1 (tileIx (tileOf t.val) b)) := by
  obtain ⟨-, -, -, -, -, -, -, -, -, e0, -⟩ := idx_facts t
  show V m c main_arg5 (((cfg0.win 5).blk t).view.emb (ix1 b)) = V m c main_arg5 _
  refine congrArg (V m c main_arg5) (funext fun a => Fin.ext ?_)
  match a with
  | ⟨0, _⟩ => show win0_5.index t (0 : Fin 1) * 256 + 1 * b.val = t.val % 22 * 256 + b.val; rw [e0]; omega

theorem dsB_apply (c : Dev nD) (t : Fin cfg0.N) (h : Fin 2048) :
    dsB m c t (ix1 h) = dsA m c (ix1 h) := by
  obtain ⟨-, -, -, -, -, -, -, -, -, -, e0, -⟩ := idx_facts t
  show V m c main_arg6 (((cfg0.win 6).blk t).view.emb (ix1 h)) = V m c main_arg6 _
  refine congrArg (V m c main_arg6) (funext fun a => Fin.ext ?_)
  match a with
  | ⟨0, _⟩ => show win0_6.index t (0 : Fin 1) * 2048 + 1 * h.val = h.val; rw [e0]; omega

/-! ## The accumulator from one position to the next -/

/-- At a tile-0 position the accumulator restarts: zero plus the position's partial. -/
theorem acc_restart (c : Dev nD) (t : Fin cfg0.N) (h0 : t.val % 22 = 0) :
    (outsAt0 m c t.val t.isLt).2 = k0_pay3 (xB m c t) (gB m c t) (uB m c t) (gsB m c t) (usB m c t) (dB m c t) (k0_pay2 (F := F)) := by
  have h1 : ¬t.val % 22 = 21 := by omega
  rw [outsAt0_A m c t h0 h1]
  dsimp only
  exact Pieces.acc_first (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)

/-- At any other position it continues from what the position before left. -/
theorem acc_continue (c : Dev nD) (n : ℕ) (hn : n + 1 < cfg0.N) (h0 : ¬(n + 1) % 22 = 0) :
    (outsAt0 m c (n + 1) hn).2
      = k0_pay3 (xB m c ⟨n + 1, hn⟩) (gB m c ⟨n + 1, hn⟩) (uB m c ⟨n + 1, hn⟩) (gsB m c ⟨n + 1, hn⟩) (usB m c ⟨n + 1, hn⟩) (dB m c ⟨n + 1, hn⟩)
          (outsAt0 m c n (Nat.lt_of_succ_lt hn)).2 := by
  generalize ht : (⟨n + 1, hn⟩ : Fin cfg0.N) = t
  have hv : t.val = n + 1 := by rw [← ht]
  have h0' : ¬t.val % 22 = 0 := by rw [hv]; exact h0
  show (outsAt0 m c (n + 1) hn).2 = k0_pay3 (xB m c t) (gB m c t) (uB m c t) (gsB m c t) (usB m c t) (dB m c t) (outsAt0 m c n (Nat.lt_of_succ_lt hn)).2
  have e : outsAt0 m c (n + 1) hn = outsAt0 m c t.val t.isLt := by subst ht; rfl
  have ep : (outsAt0 m c n (Nat.lt_of_succ_lt hn)).2 = (outsAt0 m c (t.val - 1) (Nat.lt_of_le_of_lt (Nat.sub_le _ _) t.isLt)).2 := by
    subst ht; rfl
  rw [e, ep]
  by_cases h1 : t.val % 22 = 21
  · rw [outsAt0_C m c t h0' h1]
    dsimp only
    exact Pieces.acc_last (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0' ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2
  · rw [outsAt0_B m c t h0' h1]
    dsimp only
    exact Pieces.acc_middle (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0' ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2

/-- At a tile-21 position the output block is the accumulator it leaves times the hidden scales. -/
theorem out_at_last (c : Dev nD) (t : Fin cfg0.N) (h1 : t.val % 22 = 21) :
    (outsAt0 m c t.val t.isLt).1 = k0_pay1 (outsAt0 m c t.val t.isLt).2 (dsB m c t) := by
  have h0 : ¬t.val % 22 = 0 := by omega
  rw [outsAt0_C m c t h0 h1]
  dsimp only
  rw [Pieces.out_last (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2,
    Pieces.acc_last (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2]

end Cert.KernelIdeal.Blocks

end
-- ==== Proof.TileValue.lean ====
/-
  One grid point's arithmetic, read at an index at the ideal values. With the point's blocks `xb` (512 token rows),
  `gb`, `ub` (256 rows of the gate and up weights), `db` (256 columns of the down weight) and the tile's scales
  `gsb`, `usb`, the accumulate payload at row `r` and hidden channel `h` is what the accumulator held there plus

      Σ_{b < 256}  G r b · logistic (G r b) · U r b · db[h, b],     G r b = (Σ_k xb[r,k] · gb[b,k]) · gsb[b],

  `U` likewise: a matrix product into a zero accumulator is the plain sum over its contracted axis, the changes of
  float format are the identity, and a vector cast to one row and broadcast down the rows reads its entry at the
  column. The output payload is the accumulator times the hidden channel's scale, and the reset payload is zero.
-/
import proofs.«169726_j4638564680470_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen
open Idealize.ShloMosaic Idealize.ShloMosaic.ValueIdx

/-! ## The two matrix products' operand indices, axis by axis -/

theorem lhs_proj_0 (j : S512x256.Idx) (q : dot_S512x2048_S256x2048_S512x256_1_1_0_0_n_n.contr.Idx) :
    (dot_S512x2048_S256x2048_S512x256_1_1_0_0_n_n.lhsIdx j q 0).val = (j 0).val := by
  unfold DotDims.lhsIdx
  rw [dif_neg (show ¬(0 : Fin S512x2048.rank) ∈ dot_S512x2048_S256x2048_S512x256_1_1_0_0_n_n.lhsBatch by decide), dif_pos (show (0 : Fin S512x2048.rank) ∈ dot_S512x2048_S256x2048_S512x256_1_1_0_0_n_n.lhsNonContracting by decide)]
  rfl
theorem lhs_proj_1 (j : S512x256.Idx) (q : dot_S512x2048_S256x2048_S512x256_1_1_0_0_n_n.contr.Idx) :
    (dot_S512x2048_S256x2048_S512x256_1_1_0_0_n_n.lhsIdx j q 1).val = (q ⟨0, by decide⟩).val :=
  dot_S512x2048_S256x2048_S512x256_1_1_0_0_n_n.lhsIdx_val_of_single rfl j q
theorem rhs_proj_0 (j : S512x256.Idx) (q : dot_S512x2048_S256x2048_S512x256_1_1_0_0_n_n.contr.Idx) :
    (dot_S512x2048_S256x2048_S512x256_1_1_0_0_n_n.rhsIdx j q 0).val = (j 1).val := by
  unfold DotDims.rhsIdx
  rw [dif_neg (show ¬(0 : Fin S256x2048.rank) ∈ dot_S512x2048_S256x2048_S512x256_1_1_0_0_n_n.rhsBatch by decide), dif_pos (show (0 : Fin S256x2048.rank) ∈ dot_S512x2048_S256x2048_S512x256_1_1_0_0_n_n.rhsNonContracting by decide)]
  rfl
theorem rhs_proj_1 (j : S512x256.Idx) (q : dot_S512x2048_S256x2048_S512x256_1_1_0_0_n_n.contr.Idx) :
    (dot_S512x2048_S256x2048_S512x256_1_1_0_0_n_n.rhsIdx j q 1).val = (q ⟨0, by decide⟩).val :=
  dot_S512x2048_S256x2048_S512x256_1_1_0_0_n_n.rhsIdx_val_of_single rfl j q

theorem lhs_down_0 (j : S512x2048.Idx) (q : dot_S512x256_S2048x256_S512x2048_1_1_0_0_n_n.contr.Idx) :
    (dot_S512x256_S2048x256_S512x2048_1_1_0_0_n_n.lhsIdx j q 0).val = (j 0).val := by
  unfold DotDims.lhsIdx
  rw [dif_neg (show ¬(0 : Fin S512x256.rank) ∈ dot_S512x256_S2048x256_S512x2048_1_1_0_0_n_n.lhsBatch by decide), dif_pos (show (0 : Fin S512x256.rank) ∈ dot_S512x256_S2048x256_S512x2048_1_1_0_0_n_n.lhsNonContracting by decide)]
  rfl
theorem lhs_down_1 (j : S512x2048.Idx) (q : dot_S512x256_S2048x256_S512x2048_1_1_0_0_n_n.contr.Idx) :
    (dot_S512x256_S2048x256_S512x2048_1_1_0_0_n_n.lhsIdx j q 1).val = (q ⟨0, by decide⟩).val :=
  dot_S512x256_S2048x256_S512x2048_1_1_0_0_n_n.lhsIdx_val_of_single rfl j q
theorem rhs_down_0 (j : S512x2048.Idx) (q : dot_S512x256_S2048x256_S512x2048_1_1_0_0_n_n.contr.Idx) :
    (dot_S512x256_S2048x256_S512x2048_1_1_0_0_n_n.rhsIdx j q 0).val = (j 1).val := by
  unfold DotDims.rhsIdx
  rw [dif_neg (show ¬(0 : Fin S2048x256.rank) ∈ dot_S512x256_S2048x256_S512x2048_1_1_0_0_n_n.rhsBatch by decide), dif_pos (show (0 : Fin S2048x256.rank) ∈ dot_S512x256_S2048x256_S512x2048_1_1_0_0_n_n.rhsNonContracting by decide)]
  rfl
theorem rhs_down_1 (j : S512x2048.Idx) (q : dot_S512x256_S2048x256_S512x2048_1_1_0_0_n_n.contr.Idx) :
    (dot_S512x256_S2048x256_S512x2048_1_1_0_0_n_n.rhsIdx j q 1).val = (q ⟨0, by decide⟩).val :=
  dot_S512x256_S2048x256_S512x2048_1_1_0_0_n_n.rhsIdx_val_of_single rfl j q

/-! ## The two matrix products at an index -/

/-- A projection's product at `(r, b)`: row `r` of the token block against row `b` of the weight tile. -/
theorem proj_matmul_apply (xb : FVec Ideal S512x2048 .bf16) (wb : FVec Ideal S256x2048 .bf16) (r : Fin 512) (b : Fin 256) :
    matmul dot_S512x2048_S256x2048_S512x256_1_1_0_0_n_n none xb wb (constant (F := Ideal) S512x256 .f32 0x00000000#32) (ix2 r b)
      = ∑ k : Fin 2048, xb (ix2 r k) * wb (ix2 b k) := by
  simp only [matmul]
  rw [Ideal.matmul_constant_zero_apply, ← Equiv.sum_comp (contrEquiv1 dot_S512x2048_S256x2048_S512x256_1_1_0_0_n_n 2048 rfl rfl).symm]
  refine Finset.sum_congr rfl fun k _ => ?_
  have hk := contrEquiv1_symm_val dot_S512x2048_S256x2048_S512x256_1_1_0_0_n_n 2048 rfl rfl k
  have el : dot_S512x2048_S256x2048_S512x256_1_1_0_0_n_n.lhsIdx (ix2 r b) ((contrEquiv1 dot_S512x2048_S256x2048_S512x256_1_1_0_0_n_n 2048 rfl rfl).symm k) = ix2 r k := funext fun a => Fin.ext (by
    match a with
    | ⟨0, _⟩ => exact lhs_proj_0 _ _
    | ⟨1, _⟩ => exact (lhs_proj_1 _ _).trans hk)
  have er : dot_S512x2048_S256x2048_S512x256_1_1_0_0_n_n.rhsIdx (ix2 r b) ((contrEquiv1 dot_S512x2048_S256x2048_S512x256_1_1_0_0_n_n 2048 rfl rfl).symm k) = ix2 b k := funext fun a => Fin.ext (by
    match a with
    | ⟨0, _⟩ => exact rhs_proj_0 _ _
    | ⟨1, _⟩ => exact (rhs_proj_1 _ _).trans hk)
  rw [el, er]

/-- The down projection's product at `(r, h)`: row `r` of the activations against row `h` of the down tile. -/
theorem down_matmul_apply (ab : FVec Ideal S512x256 .bf16) (db : FVec Ideal S2048x256 .bf16) (r : Fin 512) (h : Fin 2048) :
    matmul dot_S512x256_S2048x256_S512x2048_1_1_0_0_n_n none ab db (constant (F := Ideal) S512x2048 .f32 0x00000000#32) (ix2 r h)
      = ∑ b : Fin 256, ab (ix2 r b) * db (ix2 h b) := by
  simp only [matmul]
  rw [Ideal.matmul_constant_zero_apply, ← Equiv.sum_comp (contrEquiv1 dot_S512x256_S2048x256_S512x2048_1_1_0_0_n_n 256 rfl rfl).symm]
  refine Finset.sum_congr rfl fun k _ => ?_
  have hk := contrEquiv1_symm_val dot_S512x256_S2048x256_S512x2048_1_1_0_0_n_n 256 rfl rfl k
  have el : dot_S512x256_S2048x256_S512x2048_1_1_0_0_n_n.lhsIdx (ix2 r h) ((contrEquiv1 dot_S512x256_S2048x256_S512x2048_1_1_0_0_n_n 256 rfl rfl).symm k) = ix2 r k := funext fun a => Fin.ext (by
    match a with
    | ⟨0, _⟩ => exact lhs_down_0 _ _
    | ⟨1, _⟩ => exact (lhs_down_1 _ _).trans hk)
  have er : dot_S512x256_S2048x256_S512x2048_1_1_0_0_n_n.rhsIdx (ix2 r h) ((contrEquiv1 dot_S512x256_S2048x256_S512x2048_1_1_0_0_n_n 256 rfl rfl).symm k) = ix2 h k := funext fun a => Fin.ext (by
    match a with
    | ⟨0, _⟩ => exact rhs_down_0 _ _
    | ⟨1, _⟩ => exact (rhs_down_1 _ _).trans hk)
  rw [el, er]

/-! ## The scales, broadcast down the rows -/

theorem tile_scale_apply (sb : Vec Ideal S256 .f32) (r : Fin 512) (b : Fin 256) :
    broadcastTo S512x256 (shapeCast S1x256 sb Facts₀.shapeCasts_S256_S1x256) Facts₀.broadcasts_S1x256_S512x256 (ix2 r b) = sb (ix1 b) :=
  (broadcastTo_1b_ab_apply _ Facts₀.broadcasts_S1x256_S512x256 r b).trans (shapeCast_a_1a_apply sb Facts₀.shapeCasts_S256_S1x256 0 b)

theorem out_scale_apply (sb : Vec Ideal S2048 .f32) (r : Fin 512) (h : Fin 2048) :
    broadcastTo S512x2048 (shapeCast S1x2048 sb Facts₀.shapeCasts_S2048_S1x2048) Facts₀.broadcasts_S1x2048_S512x2048 (ix2 r h) = sb (ix1 h) :=
  (broadcastTo_1b_ab_apply _ Facts₀.broadcasts_S1x2048_S512x2048 r h).trans (shapeCast_a_1a_apply sb Facts₀.shapeCasts_S2048_S1x2048 0 h)

/-! ## The payloads -/

/-- A scaled projection of the point's token rows onto the tile's channels. -/
def projBlk (xb : Vec Ideal S512x2048 .f32) (wb : Vec Ideal S256x2048 .f32) (sb : Vec Ideal S256 .f32) (r : Fin 512) (b : Fin 256) : EReal :=
  (∑ k : Fin 2048, xb (ix2 r k) * wb (ix2 b k)) * sb (ix1 b)

/-- One channel's term of the point's partial down projection. -/
def termBlk (xb : Vec Ideal S512x2048 .f32) (gb ub : Vec Ideal S256x2048 .f32) (gsb usb : Vec Ideal S256 .f32) (db : Vec Ideal S2048x256 .f32)
    (r : Fin 512) (h : Fin 2048) (b : Fin 256) : EReal :=
  projBlk xb gb gsb r b * Ideal.logistic (projBlk xb gb gsb r b) * projBlk xb ub usb r b * db (ix2 h b)

/-- A scaled projection as the payload spells it — the token block and the weight tile narrowed to bf16 (the identity
    here), multiplied into a zero accumulator, times the tile's scales broadcast down the rows — read at `(r, b)`. -/
theorem proj_apply (xb : Vec Ideal S512x2048 .f32) (wb : Vec Ideal S256x2048 .f32) (sb : Vec Ideal S256 .f32) (r : Fin 512) (b : Fin 256) :
    mulf (matmul dot_S512x2048_S256x2048_S512x256_1_1_0_0_n_n none
        (truncf .bf16 (shapeCast S512x2048 xb Facts₀.shapeCasts_S512x2048_S512x2048) Facts₀.bitsLt_bf16_f32)
        (truncf .bf16 wb Facts₀.bitsLt_bf16_f32) (constant (F := Ideal) S512x256 .f32 0x00000000#32))
      (broadcastTo S512x256 (shapeCast S1x256 sb Facts₀.shapeCasts_S256_S1x256) Facts₀.broadcasts_S1x256_S512x256) (ix2 r b)
      = projBlk xb wb sb r b := by
  rw [mulf_apply, proj_matmul_apply, tile_scale_apply]
  simp only [truncf_apply, shapeCast_self]
  rfl

/-- The accumulate payload at `(r, h)`: the accumulator there plus the tile's 256 terms. -/
theorem accumulate_apply (xb : Vec Ideal S512x2048 .f32) (gb ub : Vec Ideal S256x2048 .f32) (gsb usb : Vec Ideal S256 .f32)
    (db : Vec Ideal S2048x256 .f32) (acc : Vec Ideal S512x2048 .f32) (r : Fin 512) (h : Fin 2048) :
    k0_pay3 (F := Ideal) xb gb ub gsb usb db acc (ix2 r h)
      = acc (ix2 r h) + ∑ b : Fin 256, termBlk xb gb ub gsb usb db r h b := by
  unfold k0_pay3
  rw [shapeCast_self, addf_apply, down_matmul_apply]
  refine congrArg (acc (ix2 r h) + ·) (Finset.sum_congr rfl fun b _ => ?_)
  rw [truncf_apply, truncf_apply, mulf_apply, mulf_apply]
  simp only [logistic]
  rw [proj_apply, proj_apply]
  rfl

/-- The output payload at `(r, h)`: the accumulator times the hidden channel's scale. -/
theorem scaled_apply (acc : Vec Ideal S512x2048 .f32) (sb : Vec Ideal S2048 .f32) (r : Fin 512) (h : Fin 2048) :
    k0_pay1 (F := Ideal) acc sb (ix2 r h) = acc (ix2 r h) * sb (ix1 h) := by
  unfold k0_pay1
  rw [mulf_apply, out_scale_apply]

/-- The reset payload is zero everywhere. -/
theorem reset_apply (j : S512x2048.Idx) : k0_pay2 (F := Ideal) j = 0 := by
  unfold k0_pay2
  rw [shapeCast_self]
  exact Ideal.ofBits_zero_f32

end Cert.KernelIdeal.Tile

end
-- ==== Proof.RunningSum.lean ====
/-
  What the accumulator holds after each grid position, at the ideal values. After position `n` — row block `n / 22`,
  tile `n % 22` — the accumulator at row `r`, hidden channel `h` is the running sum, over tiles `0 … n % 22`, of the
  down projection's terms for token `512 · (n / 22) + r`: by induction on the position, the restart at tile 0 being
  `0 + ` the first tile's sum. After a tile-21 position that running sum is the sum over all 5632 intermediate
  channels, so the output block there is the layer's output for that token and channel.
-/
import proofs.«169726_j4638564680470_1_alg».proof.Proof.Blocks
import proofs.«169726_j4638564680470_1_alg».proof.Proof.TileValue

set_option maxRecDepth 16384

noncomputable section

open Idealize.ShloMosaic Idealize.ShloMosaic.TcCoe Idealize.SL.Sem

namespace Cert.KernelIdeal.Running

open Cert.KernelIdeal Cert.KernelIdeal.Gen Cert.KernelIdeal.Blocks Cert.GatedMlp
open Idealize.ShloMosaic.ValueIdx

variable (m : (ℓ : Loc nD τ sig) → Buf (Elt Ideal) ℓ)

/-- The down projection's terms, channel by channel, for row `r` of position `n`'s row block and hidden channel `h`. -/
def chan (c : Dev nD) (n : ℕ) (r : Fin 512) (h : Fin 2048) : Fin 5632 → EReal :=
  term (xA m c) (gA m c) (uA m c) (dA m c) (gsA m c) (usA m c) (tokIx (rowOf n) r) h

/-- One position's accumulate step adds its tile's sum of those terms. -/
theorem tile_step (c : Dev nD) (t : Fin cfg0.N) (acc : Vec Ideal S512x2048 .f32) (r : Fin 512) (h : Fin 2048) :
    k0_pay3 (F := Ideal) (xB m c t) (gB m c t) (uB m c t) (gsB m c t) (usB m c t) (dB m c t) acc (ix2 r h)
      = acc (ix2 r h) + tileSum (chan m c t.val r h) (t.val % 22) := by
  rw [Tile.accumulate_apply]
  refine congrArg (acc (ix2 r h) + ·) ?_
  unfold tileSum
  rw [dif_pos (Nat.mod_lt _ (by decide))]
  refine Finset.sum_congr rfl fun b _ => ?_
  unfold Tile.termBlk Tile.projBlk chan GatedMlp.term GatedMlp.hidden GatedMlp.proj
  simp only [xB_apply, gB_apply, uB_apply, dB_apply, gsB_apply, usB_apply]
  rfl

/-- Positions of one row block share their terms. -/
theorem chan_succ (c : Dev nD) (n : ℕ) (h0 : ¬(n + 1) % 22 = 0) (r : Fin 512) (h : Fin 2048) :
    chan m c n r h = chan m c (n + 1) r h := by
  unfold chan
  rw [show rowOf n = rowOf (n + 1) from Fin.ext (by show n / 22 % 8 = (n + 1) / 22 % 8; omega)]

/-- THE ACCUMULATOR after position `n`: the running sum over the tiles so far of its row block. -/
theorem acc_value (c : Dev nD) : ∀ (n : ℕ) (hn : n < cfg0.N) (r : Fin 512) (h : Fin 2048),
    (outsAt0 m c n hn).2 (ix2 r h) = runSum (chan m c n r h) (n % 22)
  | 0, hn, r, h => by
    refine (congrFun (acc_restart m c ⟨0, hn⟩ (Nat.zero_mod _)) (ix2 r h)).trans ?_
    rw [tile_step, Tile.reset_apply, zero_add]
    exact (runSum_zero _).symm
  | n + 1, hn, r, h => by
    by_cases h0 : (n + 1) % 22 = 0
    · refine (congrFun (acc_restart m c ⟨n + 1, hn⟩ h0) (ix2 r h)).trans ?_
      rw [tile_step, Tile.reset_apply, zero_add]
      show tileSum (chan m c (n + 1) r h) ((n + 1) % 22) = runSum (chan m c (n + 1) r h) ((n + 1) % 22)
      rw [h0]
      exact (runSum_zero _).symm
    · refine (congrFun (acc_continue m c n hn h0) (ix2 r h)).trans ?_
      rw [tile_step, acc_value c n (Nat.lt_of_succ_lt hn) r h]
      show runSum (chan m c n r h) (n % 22) + tileSum (chan m c (n + 1) r h) ((n + 1) % 22)
        = runSum (chan m c (n + 1) r h) ((n + 1) % 22)
      rw [chan_succ m c n h0, show (n + 1) % 22 = n % 22 + 1 from by omega, runSum_succ]

/-- THE OUTPUT BLOCK at a tile-21 position: the layer's output at the row block's tokens. -/
theorem out_value (c : Dev nD) (t : Fin cfg0.N) (h1 : t.val % 22 = 21) (r : Fin 512) (h : Fin 2048) :
    (outsAt0 m c t.val t.isLt).1 (ix2 r h)
      = mlp (xA m c) (gA m c) (uA m c) (dA m c) (gsA m c) (usA m c) (dsA m c) (ix2 (tokIx (rowOf t.val) r) h) := by
  rw [out_at_last m c t h1, Tile.scaled_apply, acc_value m c t.val t.isLt r h, h1, runSum_last, dsB_apply]
  rfl

end Cert.KernelIdeal.Running

end
-- ==== Proof.KernelValue.lean ====
/-
  What the kernel's result holds after the run, at the ideal values. The output window writes block `n / 22` back at
  each tile-21 position: rows `512 · (n / 22) …` of the output array, all 2048 columns — the layer's output at those
  tokens. The eight write-backs cover the array (row `i` is written at position `22 · (i / 512) + 21`), so the array ends
  holding the layer's output of the arrays the region found: the input reshaped to tokens by hidden channels, and the
  weights and scales as launched. The program's result is that array reshaped back to batch by sequence by hidden.
-/
import proofs.«169726_j4638564680470_1_alg».proof.Proof.RunningSum
import Idealize.ShloMosaic.Lib.Pipeline.Value
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Blocks Cert.KernelIdeal.Running Cert.GatedMlp
open Idealize.ShloMosaic.ValueIdx

variable (m : (ℓ : Loc nD τ sig) → Buf (Elt Ideal) ℓ) (ρ : Dev nD → PrngReg)

/-- The layer's output of the arrays as the region finds them. -/
abbrev layer (c : Dev nD) : Vec Ideal S4096x2048 .f32 := mlp (xA m c) (gA m c) (uA m c) (dA m c) (gsA m c) (usA m c) (dsA m c)

/-- What a tile-21 position writes back is its block of the layer's output. -/
theorem flushed_eq (c : Dev nD) (t : Fin cfg0.N) (hf : (cfg0.win 7).flush t = true) :
    (dats m 0 c).flushed 7 t = ((cfg0.win 7).blk t).view.read (Elt Ideal) (layer m c) := by
  have h1 : t.val % 22 = 21 := (flush0_7 t).mp hf
  obtain ⟨-, -, -, -, -, -, -, -, -, -, -, e0, e1⟩ := idx_facts t
  show (cfg0.win 7).cut (grid0.coords t) ((dats m 0 c).after 7 t) = _
  rw [after0_7]
  funext j
  obtain ⟨p, q, rfl⟩ : ∃ (p : Fin 512) (q : Fin 2048), j = ix2 p q := ⟨j 0, j 1, eq_ix2 j⟩
  show (outsAt0 m c t.val t.isLt).1 (ix2 p q) = layer m c (((cfg0.win 7).blk t).view.emb (ix2 p q))
  rw [out_value m c t h1 p q]
  refine congrArg (layer m c) (funext fun a => Fin.ext ?_)
  match a with
  | ⟨0, _⟩ => show t.val / 22 % 8 * 512 + p.val = win0_7.index t (0 : Fin 2) * 512 + 1 * p.val; rw [e0]; omega
  | ⟨1, _⟩ => show q.val = win0_7.index t (1 : Fin 2) * 2048 + 1 * q.val; rw [e1]; omega

/-- An index of the output array is in position `t`'s block iff each coordinate is in the block's range. -/
theorem mem_blk (t : Fin cfg0.N) (i : S4096x2048.Idx) :
    i ∈ ((cfg0.win 7).blk t).view.set ↔ ∀ a : Fin 2, win0_7.index t a * S512x2048.size a ≤ (i a).val ∧ (i a).val < win0_7.index t a * S512x2048.size a + S512x2048.size a := by
  show i ∈ ((View.whole main_v1).slice (win0_7.rect t)).set ↔ _
  rw [View.set_slice_whole, Rect.mem_set_unit]
  exact Iff.rfl

/-- Every index is written back: row `i` at the last tile of its row block. -/
theorem covered (i : S4096x2048.Idx) :
    ∃ t : Fin cfg0.N, (cfg0.win 7).flush t = true ∧ i ∈ ((cfg0.win 7).blk t).view.set := by
  have hi0 : (i 0).val < 4096 := (i 0).isLt
  have hi1 : (i 1).val < 2048 := (i 1).isLt
  obtain ⟨t, ht⟩ : ∃ t : Fin cfg0.N, t.val = (i 0).val / 512 * 22 + 21 :=
    ⟨⟨(i 0).val / 512 * 22 + 21, by have : cfg0.N = 176 := N_0; omega⟩, rfl⟩
  obtain ⟨-, -, -, -, -, -, -, -, -, -, -, e0, e1⟩ := idx_facts t
  refine ⟨t, (flush0_7 t).mpr (by rw [ht]; omega), ?_⟩
  rw [mem_blk]
  intro a
  match a with
  | ⟨0, _⟩ => show win0_7.index t (0 : Fin 2) * 512 ≤ (i 0).val ∧ (i 0).val < win0_7.index t (0 : Fin 2) * 512 + 512; rw [e0, ht]; omega
  | ⟨1, _⟩ => show win0_7.index t (1 : Fin 2) * 2048 ≤ (i 1).val ∧ (i 1).val < win0_7.index t (1 : Fin 2) * 2048 + 2048; rw [e1]; omega

/-- THE OUTPUT ARRAY after the run is the layer's output. -/
theorem final (c : Dev nD) : (dats m 0 c).arrAt 7 cfg0.N = layer m c :=
  (dats m 0 c).arrAt_eq_of_cover 7 (layer m c) (flushed_eq m c) covered

/-- The token array the region finds is the launched input, reshaped. -/
theorem tokens_eq (c : Dev nD) :
    (xA m c : Vec Ideal S4096x2048 .f32)
      = shapeCast S4096x2048 (m ((c : Thread nD τ).loc main_arg0)) Facts₀.shapeCasts_S2x2048x2048_S4096x2048 := by
  show StableHlo.after hostOps0 (fun b => m (c, b)) (Proc.devRef .tc main_v0) = _
  after_results
  rfl

/-- The layer's output of the launched arrays: what both programs end holding, before the last reshape. -/
abbrev launched (c : Dev nD) : Vec Ideal S4096x2048 .f32 :=
  mlp (shapeCast S4096x2048 (m ((c : Thread nD τ).loc main_arg0)) Facts₀.shapeCasts_S2x2048x2048_S4096x2048)
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

theorem layer_eq (c : Dev nD) : layer m c = launched m c := by
  show mlp (xA m c) (gA m c) (uA m c) (dA m c) (gsA m c) (usA m c) (dsA m c) = _
  rw [tokens_eq m c, show gA m c = _ from V_main_arg1 m c, show uA m c = _ from V_main_arg2 m c,
    show dA m c = _ from V_main_arg3 m c, show gsA m c = _ from V_main_arg4 m c, show usA m c = _ from V_main_arg5 m c,
    show dsA m c = _ from V_main_arg6 m c]

/-- The program's result: the reshape after the region applied to the output array. -/
theorem result_eq (c : Dev nD) :
    Pipeline.afterTail₀ cfgs (dats m) 0 (V0 m) [hostOps1] c main_v2
      = shapeCast S2x2048x2048 (launched m c) Facts₀.shapeCasts_S4096x2048_S2x2048x2048 := by
  unfold Pipeline.afterTail₀
  show StableHlo.after hostOps1 _ (Proc.devRef .tc main_v2) = _
  after_results
  exact congrArg (fun y => shapeCast S2x2048x2048 y Facts₀.shapeCasts_S4096x2048_S2x2048x2048)
    ((Pipeline.withArrays_arr spec0 launch0.win.arr_inj c _ _ 7).trans ((final m c).trans (layer_eq m c)))

/-- THE RUN, READ: the result at the reshaped layer's output of the launched arrays, the arguments unchanged. -/
theorem run : θ_run defs (onTc (τ := τ) (main (F := Ideal))) ⟨m, fun _ => 0, ρ⟩ fun r => ∀ c : Dev nD,
      r.2.mem ((c.tc : Thread nD τ).loc main_v2) = shapeCast S2x2048x2048 (launched m c) Facts₀.shapeCasts_S4096x2048_S2x2048x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.Result

end
-- ==== Proof.lean ====
/-
  A gated feed-forward layer over 4096 tokens: for token `t` and hidden channel `h`,

      out[t, h] = (Σ_i silu(gate[t, i]) · up[t, i] · down_w[h, i]) · down_s[h],
      gate[t, i] = (Σ_k x[t, k] · gate_w[i, k]) · gate_s[i],     up[t, i] = (Σ_k x[t, k] · up_w[i, k]) · up_s[i],

  with silu(g) = g · logistic(g), over 5632 intermediate channels `i`. The reference computes it with three whole
  contractions. The kernel walks an 8 × 22 grid: for each block of 512 tokens it visits the 22 tiles of 256 intermediate
  channels in turn, adds each tile's partial down projection into an accumulator that it zeroes at the first tile, and
  at the last tile writes the accumulator times `down_s` to the output block.

  Over the extended reals the two are the same function of the arguments: the accumulator after tile `j` is the running
  sum of the tiles `0 … j` (induction on the grid position), the 22 tiles partition the 5632 channels, a matrix product
  into a zero accumulator is the plain sum over its contracted axis, the narrowing to bf16 is the identity, the kernel's
  logistic and the reference's `1 / (1 + exp (-g))` are one function, and both multiply by `down_s` after the sum. Only
  the commutativity and associativity of addition is used, so the inputs' finiteness is never needed.

  The three frames are the generated ones (the reference's is its run with the result dropped); the idealization rewrote
  nothing, so `preserves` is trivial.
-/
import proofs.«169726_j4638564680470_1_alg».proof.Defs
import proofs.«169726_j4638564680470_1_alg».proof.Proof.Gen.Kernel
import proofs.«169726_j4638564680470_1_alg».proof.Proof.Gen.Kernel.Skeleton
import proofs.«169726_j4638564680470_1_alg».proof.Proof.Gen.Kernel.Launch
import proofs.«169726_j4638564680470_1_alg».proof.Proof.Gen.Kernel.Points
import proofs.«169726_j4638564680470_1_alg».proof.Proof.Gen.Kernel.Frame
import proofs.«169726_j4638564680470_1_alg».proof.Proof.Gen.KernelIdeal
import proofs.«169726_j4638564680470_1_alg».proof.Proof.Gen.KernelIdeal.Skeleton
import proofs.«169726_j4638564680470_1_alg».proof.Proof.Gen.KernelIdeal.Launch
import proofs.«169726_j4638564680470_1_alg».proof.Proof.Gen.KernelIdeal.Points
import proofs.«169726_j4638564680470_1_alg».proof.Proof.Gen.KernelIdeal.Frame
import proofs.«169726_j4638564680470_1_alg».proof.Proof.Gen.ReferenceIdeal
import proofs.«169726_j4638564680470_1_alg».proof.Proof.Gen.ReferenceIdeal.Run
import proofs.«169726_j4638564680470_1_alg».proof.Proof.Gen.ReferenceIdeal.Read
import proofs.«169726_j4638564680470_1_alg».proof.Proof.Gen.Pre_finite_inputs
import proofs.«169726_j4638564680470_1_alg».proof.Proof.RefMlp
import proofs.«169726_j4638564680470_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the layer's output of the launched arrays, reshaped to batch by sequence by hidden: the
    kernel by the running sum over its grid, the reference operation by operation. -/
theorem algebraic : Cert.algebraic_KernelIdeal_ReferenceIdeal := by
  intro m ρ m' ρ' _ hagree
  refine ⟨fun c => shapeCast Cert.KernelIdeal.S2x2048x2048 (Cert.KernelIdeal.Result.launched m c)
      Cert.KernelIdeal.Facts₀.shapeCasts_S4096x2048_S2x2048x2048, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq]
  unfold Cert.ReferenceIdeal.Read.val_main_v15
  rw [Cert.ReferenceIdeal.Layer.stage_eq_mlp, (hagree c).1, (hagree c).2.1, (hagree c).2.2.1, (hagree c).2.2.2.1,
    (hagree c).2.2.2.2.1, (hagree c).2.2.2.2.2.1, (hagree c).2.2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
